-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x1, .f32⟩
  | .hbm, ⟨5, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v21 : BitVec 1 := Scalar.cmpi .eq arg0 c63_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.KernelPieces.lean ====
/-
  What one grid point leaves behind, for any float instance. The kernel keeps a running total in a
  [1, 1] scratch cell. At the first point it stores zero there and then total + block sum, so the cell
  ends at the accumulation step applied to zero; at every later point the cell, holding what the point
  before left, ends at the accumulation step applied to that; at the last point the output cell is also
  written, with the scaling step applied to the freshly updated total. Each statement reads the stores
  of one control case back through the whole one-entry cell.
-/
import proofs.«151183_j10746008175287_1_alg».proof.Proof.Gen.KernelIdeal.Frame
import Idealize.ShloMosaic.Lib.Pipeline.Value
import Idealize.ShloMosaic.Lib.Tactic

noncomputable section

namespace Cert.KernelIdeal.HingeValue

open Idealize.ShloMosaic Idealize.ShloMosaic.TcCoe Idealize.SL.Sem
open Cert.KernelIdeal Cert.KernelIdeal.Gen

variable {F : FTy → Type} [FloatOps F]

/-- The offset of a store that covers its whole buffer. -/
theorem hz : (![0, 0] : Fin 2 → Nat) = fun _ => 0 := funext fun a => by fin_cases a <;> rfl

/-- First point: the total is reset to the zero cell and the block's sum added onto it. -/
theorem total_first (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S4096x128 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

/-- A middle point: the block's sum is added onto the total the point before left. -/
theorem total_middle (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S4096x128 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S4096x128) hz,
    View.ld_unit_zero (S := S1x1) hz]

/-- The last point updates the total in the same way … -/
theorem total_last (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x128 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S4096x128) hz,
    View.ld_unit_zero (S := S1x1) hz]

/-- … and writes the output cell: the updated total, read back, scaled. -/
theorem output_last (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x128 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readCov_unit_zero (S := S1x1) _ hz, View.readAt_eq_ld, h1.read_unread, h2.read_unread, h4.read_unread,
    View.ld_unit_zero (S := S4096x128) hz, View.ld_unit_zero (S := S1x1) hz]

end Cert.KernelIdeal.HingeValue

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.HingeMean.lean ====
/-
  The mathematics of the hinge mean, with no program in sight. One entry's hinge is
  max (margin − (a − b), 0), the margin and the zero kept as the float words both programs print. The
  kernel walks the 33554432 = 64 · 4096 · 128 entries as 64 blocks of 4096 rows of 128 lanes and adds
  lane sums into row sums into block sums into a running total; the reference adds all entries at once.
  Addition of extended reals is commutative and associative, so the nested sum over (block, row, lane)
  is the flat sum: entry (t, r, l) sits at flat position (t · 4096 + r) · 128 + l, and these positions
  run through every index below 33554432 exactly once.
-/
import Mathlib.Algebra.BigOperators.Fin
import Idealize.ShloMosaic.PureOps.Ideal
import Idealize.ShloMosaic.Lib.ValueIdx
import proofs.«151183_j10746008175287_1_alg».proof.Proof.LibTiles

noncomputable section

namespace Cert.HingeMean

open Idealize.ShloMosaic

/-- One entry's hinge: max (margin − (a − b), 0) on the extended reals. -/
def hinge (a b : EReal) : EReal :=
  max (Ideal.ofBits .f32 0x3DCCCCCD#32 - (a - b)) (Ideal.ofBits .f32 0x00000000#32)

/-- The mean of the hinges of two flat arrays: the sum of all 33554432 hinges times the word of 2^-25. -/
def mean (a b : (⟨1, ![33554432]⟩ : Shape).Idx → EReal) : EReal :=
  (∑ p : Fin 33554432, hinge (a (ValueIdx.ix1 p)) (b (ValueIdx.ix1 p))) * Ideal.ofBits .f32 0x33000000#32

/-- The mean, spelt out. -/
theorem mean_def (a b : (⟨1, ![33554432]⟩ : Shape).Idx → EReal) :
    mean a b = (∑ p : Fin 33554432, hinge (a (ValueIdx.ix1 p)) (b (ValueIdx.ix1 p))) * Ideal.ofBits .f32 0x33000000#32 :=
  rfl

/-- Lane l of row r of block t lies below 33554432: (t · 4096 + r) · 128 + l ≤ (63 · 4096 + 4095) · 128 + 127. -/
theorem flat_lt (t : Fin 64) (r : Fin 4096) (l : Fin 128) :
    (t.val * 4096 + r.val) * 128 + l.val < 33554432 := by
  have := t.isLt; have := r.isLt; have := l.isLt; omega

/-- The flat position of lane l of row r of block t. -/
def flat (t : Fin 64) (r : Fin 4096) (l : Fin 128) : Fin 33554432 :=
  ⟨(t.val * 4096 + r.val) * 128 + l.val, flat_lt t r l⟩

variable {M : Type*} [AddCommMonoid M]

/-- A sum over all 33554432 positions is the sum over the 64 blocks of the sums over a block's 4096
    rows of the sums over a row's 128 lanes: cut the positions into 262144 rows of 128 lanes, then
    the rows into 64 blocks of 4096. -/
theorem sum_flat (f : Fin 33554432 → M) :
    ∑ i : Fin 33554432, f i = ∑ t : Fin 64, ∑ r : Fin 4096, ∑ l : Fin 128, f (flat t r l) := by
  have hrows : ∑ i : Fin 33554432, f i
      = ∑ j : Fin 262144, ∑ k : Fin 128, f ⟨j.val * 128 + k.val, Cert.LibTiles.tile_lt j k⟩ :=
    Cert.LibTiles.tile_sum 262144 128 f
  have hblocks : (∑ j : Fin 262144, ∑ k : Fin 128, f ⟨j.val * 128 + k.val, Cert.LibTiles.tile_lt j k⟩)
      = ∑ t : Fin 64, ∑ r : Fin 4096, ∑ k : Fin 128,
          f ⟨(⟨t.val * 4096 + r.val, Cert.LibTiles.tile_lt t r⟩ : Fin 262144).val * 128 + k.val,
            Cert.LibTiles.tile_lt (⟨t.val * 4096 + r.val, Cert.LibTiles.tile_lt t r⟩ : Fin 262144) k⟩ :=
    Cert.LibTiles.tile_sum 64 4096
      (fun j : Fin 262144 => ∑ k : Fin 128, f ⟨j.val * 128 + k.val, Cert.LibTiles.tile_lt j k⟩)
  rw [hrows, hblocks]
  rfl

/-- The running total after block n: block sums added one after the other, the first onto zero. -/
def running (S : ℕ → M) : ℕ → M
  | 0 => 0 + S 0
  | n + 1 => running S n + S (n + 1)

theorem running_zero (S : ℕ → M) : running S 0 = 0 + S 0 := rfl
theorem running_succ (S : ℕ → M) (n : ℕ) : running S (n + 1) = running S n + S (n + 1) := rfl

/-- The running total after block n is the sum of the first n + 1 block sums. -/
theorem running_eq_sum (S : ℕ → M) (n : ℕ) : running S n = ∑ s ∈ Finset.range (n + 1), S s := by
  induction n with
  | zero => simp [running]
  | succ n ih => rw [running, ih, Finset.sum_range_succ _ (n + 1)]

/-- After the last of 64 blocks the running total is the sum over all 64 blocks. -/
theorem running_last (S : ℕ → M) : running S 63 = ∑ t : Fin 64, S t.val := by
  rw [running_eq_sum, Fin.sum_univ_eq_sum_range]

-- From here on the mean is read through `mean_def` only: its sum over 33554432 positions is never opened
-- by a definitional check.
attribute [irreducible] mean

end Cert.HingeMean

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.BlockSum.lean ====
/-
  One block's sum, read at its one entry. The kernel reduces a [4096, 128] block in two steps: the 128
  lanes of each row into a vector of 4096 row sums, re-laid as the column [4096, 1]; then that column's
  4096 rows into one number, re-laid as [1, 1]. On the extended reals the entry of the result is the
  double sum over rows and lanes of the block.
-/
import Idealize.ShloMosaic.PureOps.Ideal.Laws
import Idealize.ShloMosaic.Lib.ValueIdx
import Idealize.ShloMosaic.Lib.Pipeline.Value
import proofs.«151183_j10746008175287_1_alg».proof.Proof.LibTiles
import proofs.«151183_j10746008175287_1_alg».proof.Proof.LibKeepdims

noncomputable section

namespace Cert.HingeMean

open Idealize.ShloMosaic Idealize.ShloMosaic.ValueIdx

/-- The column of row sums added up: the reduction of a [4096, 1] column over its rows into [1], read at
    its one index, is the sum over the 4096 rows of the column's entries. Every axis of [1] has extent
    one, so the reduction is the total over the column's index set, which is its rows. -/
theorem colSum_apply {φ : FTy} (col : FVec Ideal (⟨2, ![4096, 1]⟩ : Shape) φ) (acc : BitVec φ.bits)
    (h : (⟨2, ![4096, 1]⟩ : Shape).Reduces [0] ⟨1, ![1]⟩) (hφ : FKind.Formats φ)
    (hacc : acc = FKind.add.neutral φ hφ) (u : Fin 1) :
    multiReduction .add [0] ⟨1, ![1]⟩ col acc h hφ hacc (ix1 u) = ∑ r : Fin 4096, col (ix2 r (0 : Fin 1)) := by
  refine (Ideal.multiReduction_add_total col acc h (fun b => ?_) hφ hacc (ix1 u)).trans ?_
  · match b with
    | ⟨0, _⟩ => rfl
  · exact Cert.LibTiles.one_col col

/-- A block reduced lanes first, then rows, holds at its one entry the double sum over rows and lanes. -/
theorem blockSum_apply {φ : FTy} (blk : FVec Ideal (⟨2, ![4096, 128]⟩ : Shape) φ) (acc : BitVec φ.bits)
    (hrow : (⟨2, ![4096, 128]⟩ : Shape).Reduces [1] ⟨1, ![4096]⟩)
    (hcolCast : (⟨1, ![4096]⟩ : Shape).ShapeCasts ⟨2, ![4096, 1]⟩)
    (hcol : (⟨2, ![4096, 1]⟩ : Shape).Reduces [0] ⟨1, ![1]⟩)
    (hcast : (⟨1, ![1]⟩ : Shape).ShapeCasts ⟨2, ![1, 1]⟩)
    (hφ hφ' : FKind.Formats φ) (hacc : acc = FKind.add.neutral φ hφ) (hacc' : acc = FKind.add.neutral φ hφ')
    (u v : Fin 1) :
    shapeCast ⟨2, ![1, 1]⟩
        (multiReduction .add [0] ⟨1, ![1]⟩
          (shapeCast ⟨2, ![4096, 1]⟩ (multiReduction .add [1] ⟨1, ![4096]⟩ blk acc hrow hφ hacc) hcolCast)
          acc hcol hφ' hacc') hcast (ix2 u v)
      = ∑ r : Fin 4096, ∑ l : Fin 128, blk (ix2 r l) := by
  rw [Cert.LibKeepdims.shapeCast_a_a1_apply, colSum_apply]
  refine Finset.sum_congr rfl fun r _ => ?_
  rw [Cert.LibKeepdims.shapeCast_a_a1_apply, Cert.LibKeepdims.rowSum_apply]

end Cert.HingeMean

end
-- ==== Proof.FlatRows.lean ====
/-
  Index bookkeeping between the flat array of 33554432 entries and its view as 262144 rows of 128
  lanes. The re-laid array at (row j, lane k) is the flat array at position j · 128 + k, and a sum over
  the index set of a rank-one array is the sum over its positions.
-/
import Mathlib.Algebra.BigOperators.Fin
import Idealize.ShloMosaic.Lib.ValueIdx
import Idealize.ShloMosaic.Lib.Pipeline.Value

noncomputable section

namespace Cert.HingeMean

open Idealize.ShloMosaic Idealize.ShloMosaic.ValueIdx

/-- The index set of a rank-one array is its positions. -/
def idxEquiv1 {n : ℕ} : (⟨1, ![n]⟩ : Shape).Idx ≃ Fin n where
  toFun j := j 0
  invFun := ix1
  left_inv j := (eq_ix1 j).symm
  right_inv _ := rfl

/-- A sum over the index set of a rank-one array is the sum over its positions. -/
theorem sum_idx1 {M : Type*} [AddCommMonoid M] {n : ℕ} (f : (⟨1, ![n]⟩ : Shape).Idx → M) :
    ∑ j : (⟨1, ![n]⟩ : Shape).Idx, f j = ∑ k : Fin n, f (ix1 k) :=
  (Equiv.sum_comp idxEquiv1.symm f).symm

/-- The flat array re-laid as rows of 128 lanes reads, at lane k of row j, the flat position
    j · 128 + k: both are the same row-major position. -/
theorem rows_apply {α : Type} (x : (⟨1, ![33554432]⟩ : Shape).Idx → α)
    (h : (⟨1, ![33554432]⟩ : Shape).ShapeCasts ⟨2, ![262144, 128]⟩) (j : Fin 262144) (k : Fin 128)
    (p : Fin 33554432) (hp : p.val = j.val * 128 + k.val) :
    shapeCast ⟨2, ![262144, 128]⟩ x h (ix2 j k) = x (ix1 p) :=
  shapeCast_apply x h _ _ (by
    rw [Shape.rowMajor_val_two, Shape.rowMajor_val_one]
    exact hp)

/-- The one entry of a [1, 1] array re-laid as a scalar is that entry. -/
theorem scalar_apply {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) :=
  shapeCast_apply x h _ _ (by
    rw [Shape.rowMajor_val_two]
    have hi : ((⟨0, ![]⟩ : Shape).rowMajor i).val < 1 := ((⟨0, ![]⟩ : Shape).rowMajor i).isLt
    show 0 * 1 + 0 = _
    omega)

end Cert.HingeMean

end
-- ==== Proof.KernelBlocks.lean ====
/-
  One grid point on the extended reals. The accumulation step adds, onto the scratch cell, the sum over
  rows and lanes of the hinges of the two input blocks; the scaling step multiplies by the word of 2^-25.
  Block t of the re-laid [262144, 128] arrays holds rows t · 4096 … t · 4096 + 4095, and row j lane k of
  a re-laid array is flat position j · 128 + k, so the sum the step adds at point t is the sum of the
  hinges at the flat positions (t · 4096 + r) · 128 + l of the two arguments: the block sum of t.
-/
import proofs.«151183_j10746008175287_1_alg».proof.Proof.Gen.KernelIdeal.Frame
import proofs.«151183_j10746008175287_1_alg».proof.Proof.KernelPieces
import proofs.«151183_j10746008175287_1_alg».proof.Proof.HingeMean
import proofs.«151183_j10746008175287_1_alg».proof.Proof.BlockSum
import proofs.«151183_j10746008175287_1_alg».proof.Proof.FlatRows
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.HingeValue

open Idealize.ShloMosaic Idealize.ShloMosaic.TcCoe Idealize.SL.Sem Idealize.ShloMosaic.ValueIdx
open Idealize.ShloMosaic.Pipeline (Dat)
open Cert.KernelIdeal Cert.KernelIdeal.Gen Cert.HingeMean

variable (m : (ℓ : Loc nD τ sig) → Buf (Elt Ideal) ℓ) (ρ : Dev nD → PrngReg)

/-- The two flat argument arrays as the launch finds them. -/
abbrev argA (c : Dev nD) : (⟨1, ![33554432]⟩ : Shape).Idx → EReal := m ((c : Thread nD τ).loc main_arg0)
abbrev argB (c : Dev nD) : (⟨1, ![33554432]⟩ : Shape).Idx → EReal := m ((c : Thread nD τ).loc main_arg1)

/-! ## The payloads on the extended reals -/

/-- The reset stores zero. -/
theorem zero_cell (y : S1x1.Idx) : k0_pay1 (F := Ideal) y = 0 := by
  unfold k0_pay1
  simp only [shapeCast_self]
  exact Ideal.ofBits_zero_f32

/-- The accumulation step: the cell plus the sum over rows and lanes of the hinges of the two blocks. -/
theorem step_apply (x0 x1 : Vec Ideal S4096x128 .f32) (acc : Vec Ideal S1x1 .f32) (y : S1x1.Idx) :
    k0_pay2 x0 x1 acc y = acc y + ∑ r : Fin 4096, ∑ l : Fin 128, hinge (x0 (ix2 r l)) (x1 (ix2 r l)) := by
  obtain ⟨u, v, rfl⟩ : ∃ (u v : Fin 1), y = ix2 u v := ⟨y 0, y 1, eq_ix2 y⟩
  unfold k0_pay2
  simp only [shapeCast_self]
  exact congrArg (fun z => acc (ix2 u v) + z) (blockSum_apply (φ := .f32) _ 0x00000000#32 _ _ _ _ _ _ _ _ u v)

/-- The scaling step: the cell times the word of 2^-25. -/
theorem scale_apply (v : Vec Ideal S1x1 .f32) (y : S1x1.Idx) :
    k0_pay3 v y = v y * Ideal.ofBits .f32 0x33000000#32 := rfl

/-! ## The blocks of the re-laid arrays -/

/-- The blocks the two input windows hold at point t. -/
abbrev ablk (c : Dev nD) (t : Fin cfg0.N) : Vec Ideal S4096x128 .f32 := iblk m c 0 t
abbrev bblk (c : Dev nD) (t : Fin cfg0.N) : Vec Ideal S4096x128 .f32 := iblk m c 1 t

/-- Both input windows walk the row blocks in order and never move along the lanes. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- The region finds the two arguments re-laid as 262144 rows of 128 lanes. -/
theorem rowsA (c : Dev nD) : (V m c main_v0 : S262144x128.Idx → EReal)
    = shapeCast S262144x128 (argA m c) shapeCasts_S33554432_S262144x128 := by
  show StableHlo.after hostOps0 (fun b => m (c, b)) (Proc.devRef .tc main_v0) = _
  after_results
  rfl
theorem rowsB (c : Dev nD) : (V m c main_v1 : S262144x128.Idx → EReal)
    = shapeCast S262144x128 (argB m c) shapeCasts_S33554432_S262144x128 := by
  show StableHlo.after hostOps0 (fun b => m (c, b)) (Proc.devRef .tc main_v1) = _
  after_results
  rfl

/-- Lane l of row r of the first window's block at point t is the first argument at the flat position
    of (t, r, l). -/
theorem ablk_apply (c : Dev nD) (t : Fin cfg0.N) (s : Fin 64) (hs : s.val = t.val) (r : Fin 4096) (l : Fin 128) :
    ablk m c t (ix2 r l) = argA m c (ix1 (flat s r l)) := by
  have hi := index0 t
  have hj : s.val * 4096 + r.val < 262144 := by have := s.isLt; have := r.isLt; omega
  refine Eq.trans ?_ (rows_apply (argA m c) shapeCasts_S33554432_S262144x128 ⟨s.val * 4096 + r.val, hj⟩ l (flat s r l) rfl)
  rw [← rowsA]
  unfold ablk iblk
  rw [View.read_apply]
  show V m c main_v0 _ = V m c main_v0 _
  congr 1
  funext a
  apply Fin.ext
  match a with
  | ⟨0, _⟩ => show win0_0.index t 0 * 4096 + 1 * r.val = s.val * 4096 + r.val; rw [hi.1, hs]; omega
  | ⟨1, _⟩ => show win0_0.index t 1 * 128 + 1 * l.val = l.val; rw [hi.2]; omega

/-- The same for the second window and the second argument. -/
theorem bblk_apply (c : Dev nD) (t : Fin cfg0.N) (s : Fin 64) (hs : s.val = t.val) (r : Fin 4096) (l : Fin 128) :
    bblk m c t (ix2 r l) = argB m c (ix1 (flat s r l)) := by
  have hi := index1 t
  have hj : s.val * 4096 + r.val < 262144 := by have := s.isLt; have := r.isLt; omega
  refine Eq.trans ?_ (rows_apply (argB m c) shapeCasts_S33554432_S262144x128 ⟨s.val * 4096 + r.val, hj⟩ l (flat s r l) rfl)
  rw [← rowsB]
  unfold bblk iblk
  rw [View.read_apply]
  show V m c main_v1 _ = V m c main_v1 _
  congr 1
  funext a
  apply Fin.ext
  match a with
  | ⟨0, _⟩ => show win0_1.index t 0 * 4096 + 1 * r.val = s.val * 4096 + r.val; rw [hi.1, hs]; omega
  | ⟨1, _⟩ => show win0_1.index t 1 * 128 + 1 * l.val = l.val; rw [hi.2]; omega

/-! ## The running total -/

/-- The sum of the hinges over block s of the two arguments (zero past the grid, where no block is). -/
def blockSum (c : Dev nD) (s : ℕ) : EReal :=
  if h : s < 64 then
    ∑ r : Fin 4096, ∑ l : Fin 128, hinge (argA m c (ix1 (flat ⟨s, h⟩ r l))) (argB m c (ix1 (flat ⟨s, h⟩ r l)))
  else 0

/-- Inside the grid the block sum is the double sum. -/
theorem blockSum_of_lt (c : Dev nD) {s : ℕ} (h : s < 64) :
    blockSum m c s
      = ∑ r : Fin 4096, ∑ l : Fin 128, hinge (argA m c (ix1 (flat ⟨s, h⟩ r l))) (argB m c (ix1 (flat ⟨s, h⟩ r l))) :=
  dif_pos h

/-- The accumulation step at point t adds block t's sum. -/
theorem step_point (c : Dev nD) (t : Fin cfg0.N) (acc : Vec Ideal S1x1 .f32) (y : S1x1.Idx) :
    k0_pay2 (ablk m c t) (bblk m c t) acc y = acc y + blockSum m c t.val := by
  have ht : t.val < 64 := lt_of_lt_of_eq t.isLt (show cfg0.N = 64 from N_0)
  refine (step_apply (ablk m c t) (bblk m c t) acc y).trans ?_
  rw [blockSum_of_lt m c ht]
  refine congrArg (fun z => acc y + z) (Finset.sum_congr rfl fun r _ => Finset.sum_congr rfl fun l _ => ?_)
  exact congrArg₂ hinge (ablk_apply m c t ⟨t.val, ht⟩ rfl r l) (bblk_apply m c t ⟨t.val, ht⟩ rfl r l)

-- From here on a block sum is read through `blockSum_of_lt` only: its sum over 524288 positions is never
-- opened by a definitional check.
attribute [irreducible] blockSum

end Cert.KernelIdeal.HingeValue

end
-- ==== Proof.KernelValue.lean ====
/-
  The kernel computes the mean of the hinges. By induction over the grid the scratch cell after point n
  holds the running total of the first n + 1 block sums: the first point starts from the zero it stores,
  every later point from what the point before left. The last point writes that total times the word of
  2^-25 into the output cell, the only write-back of the output window, whose one block is the whole
  [1, 1] array; the host then re-lays that array as the scalar result. The total of the 64 block sums is
  the flat sum of all hinges, so the result is their mean.
-/
import proofs.«151183_j10746008175287_1_alg».proof.Proof.Gen.KernelIdeal.Frame
import proofs.«151183_j10746008175287_1_alg».proof.Proof.KernelPieces
import proofs.«151183_j10746008175287_1_alg».proof.Proof.KernelBlocks
import proofs.«151183_j10746008175287_1_alg».proof.Proof.HingeMean
import proofs.«151183_j10746008175287_1_alg».proof.Proof.FlatRows
import Idealize.ShloMosaic.Lib.Pipeline.Value
import Idealize.ShloMosaic.Lib.StableHlo.Run
import Idealize.ShloMosaic.Lib.Tactic

noncomputable section

namespace Cert.KernelIdeal.HingeValue

open Idealize.ShloMosaic Idealize.ShloMosaic.TcCoe Idealize.SL.Sem Idealize.ShloMosaic.ValueIdx
open Idealize.ShloMosaic.Pipeline (Dat)
open Cert.KernelIdeal Cert.KernelIdeal.Gen Cert.HingeMean

variable (m : (ℓ : Loc nD τ sig) → Buf (Elt Ideal) ℓ) (ρ : Dev nD → PrngReg)

/-- After point n the scratch cell holds the running total of the first n + 1 block sums: by induction
    over the grid, the first point starting from the zero it stores, every later one from what the point
    before left. -/
theorem total_eq (c : Dev nD) : ∀ (n : ℕ) (h : n < cfg0.N),
    (outsAt0 m c n h).2 = fun _ => running (blockSum m c) n
  | 0, h => by
    rw [outsAt0_A m c ⟨0, h⟩ rfl (show ¬(0 : ℕ) % 64 = 63 by decide)]
    dsimp only
    funext y
    refine (congrFun (total_first (F := Ideal) c (grid0.coords ⟨0, h⟩) (ms0_0 ⟨0, h⟩) (hs0_0 ⟨0, h⟩) (ms0_1 ⟨0, h⟩)
      (hs0_1 ⟨0, h⟩) (ms0_2 ⟨0, h⟩) (hs0_2 ⟨0, h⟩) scM0_0 (Memref.isWhole_whole _) _ _ (ablk m c ⟨0, h⟩)
      (bblk m c ⟨0, h⟩)) y).trans ?_
    rw [step_point, zero_cell]
    exact (running_zero (blockSum m c)).symm
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      funext y
      refine (congrFun (total_last (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) scM0_0 (Memref.isWhole_whole _) _ _
        (ablk m c ⟨n + 1, h⟩) (bblk m c ⟨n + 1, h⟩) (outsAt0 m c n (Nat.lt_of_succ_lt h)).2) y).trans ?_
      rw [step_point, total_eq c n]
      exact (running_succ (blockSum m c) n).symm
    · rw [outsAt0_B m c ⟨n + 1, h⟩ h0 h1]
      dsimp only
      funext y
      refine (congrFun (total_middle (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) scM0_0 (Memref.isWhole_whole _) _ _
        (ablk m c ⟨n + 1, h⟩) (bblk m c ⟨n + 1, h⟩) (outsAt0 m c n (Nat.lt_of_succ_lt h)).2) y).trans ?_
      rw [step_point, total_eq c n]
      exact (running_succ (blockSum m c) n).symm

/-- The last point. -/
abbrev tLast : Fin cfg0.N := ⟨63, by rw [show cfg0.N = 64 from N_0]; decide⟩

/-- The last point leaves in the output cell the total of all 64 block sums times the word of 2^-25. -/
theorem output_eq (c : Dev nD) :
    (outsAt0 m c 63 tLast.isLt).1 = fun _ => running (blockSum m c) 63 * Ideal.ofBits .f32 0x33000000#32 := by
  rw [outsAt0_C m c tLast (by decide) rfl]
  dsimp only
  funext y
  refine (congrFun (output_last (F := Ideal) c (grid0.coords tLast) (ms0_0 tLast) (hs0_0 tLast) (ms0_1 tLast)
    (hs0_1 tLast) (ms0_2 tLast) (hs0_2 tLast) scM0_0 (Memref.isWhole_whole _) _ _ (ablk m c tLast) (bblk m c tLast)
    (outsAt0 m c 62 (Nat.lt_of_succ_lt tLast.isLt)).2) y).trans ?_
  rw [scale_apply, step_point, total_eq m c 62]
  exact congrArg (fun z => z * Ideal.ofBits .f32 0x33000000#32) (running_succ (blockSum m c) 62).symm

/-- The total of all block sums, scaled, is the mean of the hinges of the two arguments: the sums over
    (block, row, lane) regroup into the flat sum. -/
theorem running_mean (c : Dev nD) :
    running (blockSum m c) 63 * Ideal.ofBits .f32 0x33000000#32 = mean (argA m c) (argB m c) := by
  rw [mean_def, running_last, sum_flat]
  refine congrArg (fun z => z * Ideal.ofBits .f32 0x33000000#32) (Finset.sum_congr rfl fun t _ => ?_)
  exact blockSum_of_lt m c t.isLt

/-! ## The output array and the result -/

/-- The [1, 1] output array after the run: its one entry the mean. -/
abbrev result (c : Dev nD) : Buf (Elt Ideal) ((c : Thread nD τ).loc main_v2) := fun _ => mean (argA m c) (argB m c)

/-- The one write-back of the output window, at the last point, writes the mean. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2]
  rw [show (outsAt0 m c (↑tLast) tLast.isLt).1 = fun _ => mean (argA m c) (argB m c) from
    (output_eq m c).trans (funext fun _ => running_mean m c)]
  show (cfg0.win 2).cut (grid0.coords tLast) (fun _ => mean (argA m c) (argB m c))
    = View.read (Elt Ideal) ((cfg0.win 2).blk tLast).view (fun _ => mean (argA m c) (argB m c))
  generalize mean (argA m c) (argB m c) = v
  have hz' : (fun a => win0_2.index tLast a * main_v2.ty.shape.size a) = fun _ => 0 :=
    funext fun a => by fin_cases a <;> decide +kernel
  exact (Memref.read_access_unit_zero (Elt Ideal) main_v2 hz' (fun a => by rw [congrFun hz' a]; simp) (fun _ => v)).symm

/-- So the output array ends holding the mean: the last point's block is the whole [1, 1] array. -/
theorem final_eq (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- After the region the [1, 1] array is re-laid as the scalar result: its one entry. -/
theorem tail_eq (c : Dev nD) :
    Pipeline.afterTail₀ cfgs (dats m) 0 (V0 m) [hostOps1] c main_v3 = fun _ => mean (argA m c) (argB m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N)
      (Proc.devRef .tc main_v2) = result m c from
    (Pipeline.withArrays_arr spec0 launch0.win.arr_inj c _ _ 2).trans (final_eq m c)]
  unfold result
  generalize mean (argA m c) (argB m c) = v
  funext i
  exact scalar_apply (fun _ => v) shapeCasts_S1x1_S_ i

/-- The run, read: every weakly fair execution terminates with the scalar result at the mean of the hinges
    of the two arguments, and the arguments unchanged. -/
theorem run : θ_run defs (onTc (τ := τ) (main (F := Ideal))) ⟨m, fun _ => 0, ρ⟩ fun r => ∀ c : Dev nD,
      r.2.mem ((c : Thread nD τ).loc main_v3) = (fun _ => mean (argA m c) (argB m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HingeValue

end
-- ==== Proof.Words.lean ====
/-
  The two float words that turn the sum into the mean. The reference divides the sum by the word of
  33554432 = 2^25, the number of entries; the kernel multiplies it by the word of 2^-25. On the extended
  reals division by a nonzero real is multiplication by its reciprocal, at the infinities too, so both
  are the same function of the sum.
-/
import Idealize.ShloMosaic.PureOps.Ideal

noncomputable section

namespace Cert.HingeMean.Words

open Idealize.ShloMosaic

/-- The word 0x4C000000 denotes 2^25 = 33554432, the number of entries. -/
theorem ofBits_count : Ideal.ofBits .f32 0x4C000000#32 = ((33554432 : ℝ) : EReal) := by
  simp [Ideal.ofBits, Ideal.ieee, -EReal.coe_mul]; norm_num

/-- The word 0x33000000 denotes 2^-25, the reciprocal of the number of entries. -/
theorem ofBits_inv_count : Ideal.ofBits .f32 0x33000000#32 = ((1 / 33554432 : ℝ) : EReal) := by
  simp [Ideal.ofBits, Ideal.ieee, -EReal.coe_mul]; norm_num

/-- Dividing by the count is multiplying by its reciprocal, for every extended real. -/
theorem div_count_eq_mul_inv (x : EReal) :
    Ideal.div x (Ideal.ofBits .f32 0x4C000000#32) = x * Ideal.ofBits .f32 0x33000000#32 := by
  rw [ofBits_count, ofBits_inv_count, Ideal.div_coe (by norm_num : (33554432 : ℝ) ≠ 0)]

end Cert.HingeMean.Words

end
-- ==== Proof.RefValue.lean ====
/-
  The reference computes the mean of the hinges. Its result is the quotient by the count word of
  zero plus the sum, over the index set of the flat arrays, of max (margin − (a − b), 0); the index set
  of a rank-one array is its positions, zero is neutral, and dividing by the count is multiplying by its
  reciprocal word.
-/
import proofs.«151183_j10746008175287_1_alg».proof.Proof.Gen.ReferenceIdeal.Read
import proofs.«151183_j10746008175287_1_alg».proof.Proof.HingeMean
import proofs.«151183_j10746008175287_1_alg».proof.Proof.FlatRows
import proofs.«151183_j10746008175287_1_alg».proof.Proof.Words
import Idealize.ShloMosaic.PureOps.Ideal.Laws

noncomputable section

namespace Cert.ReferenceIdeal.HingeValue

open Idealize.ShloMosaic Idealize.ShloMosaic.ValueIdx
open Cert.ReferenceIdeal Cert.ReferenceIdeal.Read Cert.HingeMean

/-- The reference's result, at its one index, is the mean of the hinges of its two arguments. -/
theorem result_eq (a b : (⟨S33554432, .f32⟩ : BufTy).Contents (Elt Ideal)) (i : S_.Idx) :
    val_main_v5 (F := Ideal) a b i = mean a b := by
  rw [val_main_v5_apply, val_main_v4_apply, sum_idx1]
  simp only [val_main_v3_apply, val_main_v2_apply, val_main_v1_apply, val_main_v0_apply, val_main_call0_v0_apply,
    val_main_call0_cst_apply, val_main_cst_apply, val_main_cst_0_apply, val_main_cst_1_apply, Ideal.ofBits_def,
    Ideal.hostDivf_def, Ideal.maximumf_def, Ideal.subf_def]
  rw [mean_def]
  unfold hinge
  rw [Ideal.ofBits_zero_f32, zero_add, Cert.HingeMean.Words.div_count_eq_mul_inv]

end Cert.ReferenceIdeal.HingeValue

end
-- ==== Proof.lean ====
/-
  The hinge margin loss mean_i max (margin − (a_i − b_i), 0) over two flat arrays of 33554432 = 2^25 entries.

  The kernel views each array as 262144 rows of 128 lanes and walks 64 blocks of 4096 rows. At each block it
  sums the hinges lane by lane into row sums and the row sums into one number, which it adds onto a running
  total kept in a one-entry scratch cell, reset to zero at the first block; at the last block it writes the
  total times 2^-25 into the one-entry output, which the host re-lays as a scalar. The reference subtracts,
  clamps at zero, sums all entries at once and divides by 2^25.

  On the extended reals both are the same number. Addition is commutative and associative there, so the
  nested sum over (block, row, lane) is the flat sum over all positions, entry (t, r, l) sitting at flat
  position (t · 4096 + r) · 128 + l; the zeros the sums start from are neutral; and division by the nonzero
  real 2^25 is multiplication by 2^-25, at the infinities too. No finiteness of the inputs is used.

  The word-level kernel and its idealization share one text (the ideal pass rewrote nothing), the three
  programs terminate without fault and leave their arguments unchanged.
-/
import proofs.«151183_j10746008175287_1_alg».proof.Defs
import proofs.«151183_j10746008175287_1_alg».proof.Proof.Gen.Kernel
import proofs.«151183_j10746008175287_1_alg».proof.Proof.Gen.Kernel.Frame
import proofs.«151183_j10746008175287_1_alg».proof.Proof.Gen.KernelIdeal
import proofs.«151183_j10746008175287_1_alg».proof.Proof.Gen.KernelIdeal.Frame
import proofs.«151183_j10746008175287_1_alg».proof.Proof.Gen.ReferenceIdeal
import proofs.«151183_j10746008175287_1_alg».proof.Proof.Gen.Pre_finite_inputs
import proofs.«151183_j10746008175287_1_alg».proof.Proof.Gen.ReferenceIdeal.Run
import proofs.«151183_j10746008175287_1_alg».proof.Proof.Gen.ReferenceIdeal.Read
import proofs.«151183_j10746008175287_1_alg».proof.Proof.KernelValue
import proofs.«151183_j10746008175287_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the mean of the hinges of arguments that agree. -/
theorem algebraic : Cert.algebraic_KernelIdeal_ReferenceIdeal := by
  intro m ρ m' ρ' _ hagree
  refine ⟨_, Cert.KernelIdeal.HingeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq]
  funext i
  exact Cert.ReferenceIdeal.HingeValue.result_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
